-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128x128 .f32) (main_arg4 : FVec F S128x128 .f32) (main_arg5 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S10000x256 : Shape := ⟨2, ![10000, 256]⟩
abbrev S400x10000 : Shape := ⟨2, ![400, 10000]⟩
abbrev S400x256 : Shape := ⟨2, ![400, 256]⟩
abbrev S400x128 : Shape := ⟨2, ![400, 128]⟩

abbrev nBuf : Space → Nat
  | .hbm => 11
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x256, .f32⟩
  | .hbm, ⟨7, _⟩ => ⟨S128x256, .f32⟩
  | .hbm, ⟨8, _⟩ => ⟨S10000x256, .f32⟩
  | .hbm, ⟨9, _⟩ => ⟨S10000x256, .f32⟩
  | .hbm, ⟨10, _⟩ => ⟨S10000x128, .f32⟩
  | .local _ .vmem, ⟨0, _⟩ => ⟨S10000x128, .f32⟩
  | .local _ .vmem, ⟨1, _⟩ => ⟨S128x256, .f32⟩
  | .local _ .vmem, ⟨2, _⟩ => ⟨S10000x256, .f32⟩
  | .local _ .vmem, ⟨3, _⟩ => ⟨S400x10000, .f32⟩
  | .local _ .vmem, ⟨4, _⟩ => ⟨S400x10000, .f32⟩
  | .local _ .vmem, ⟨5, _⟩ => ⟨S10000x256, .f32⟩
  | .local _ .vmem, ⟨6, _⟩ => ⟨S128x256, .f32⟩
  | .local _ .vmem, ⟨7, _⟩ => ⟨S400x256, .f32⟩
  | .local _ .vmem, ⟨8, _⟩ => ⟨S400x256, .f32⟩
  | .local _ .vmem, ⟨9, _⟩ => ⟨S400x10000, .f32⟩
  | .local _ .vmem, ⟨10, _⟩ => ⟨S400x10000, .f32⟩
  | .local _ .vmem, ⟨11, _⟩ => ⟨S10000x256, .f32⟩
  | .local _ .vmem, ⟨12, _⟩ => ⟨S400x128, .f32⟩
  | .local _ .vmem, ⟨13, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S128x128_S128x128_S128x256_d1 : Shape.Concatenates [S128x128, S128x128] S128x256 1
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10000x256_S10000x256_0_0 : ∀ a, (![0, 0] : Fin 2 → Nat) a + S10000x256.size a ≤ S10000x256.size a
  h_S10000x256 : 0 < S10000x256.numel
  inb_S400x10000_S400x10000_0_0 : ∀ a, (![0, 0] : Fin 2 → Nat) a + S400x10000.size a ≤ S400x10000.size a
  h_S400x10000 : 0 < S400x10000.numel
  shapeCasts_S10000x256_S10000x256 : S10000x256.ShapeCasts S10000x256
  slices_S400x256_o0_128_S400x128 : S400x256.Slices ![0, 128] S400x128
  slices_S400x256_o0_0_S400x128 : S400x256.Slices ![0, 0] S400x128
  inb_S400x256_S400x256_0_0 : ∀ a, (![0, 0] : Fin 2 → Nat) a + S400x256.size a ≤ S400x256.size a
  h_S400x256 : 0 < S400x256.numel
  inb_S400x128_S400x128_0_0 : ∀ a, (![0, 0] : Fin 2 → Nat) a + S400x128.size a ≤ S400x128.size a
  h_S400x128 : 0 < S400x128.numel
  dot_S10000x128_S128x256_S10000x256_1_0_0_1_n_n_wf : DotDims.WF S10000x128 S128x256 S10000x256 [1] [0] [0] [1] [] []
  dot_S400x10000_S10000x256_S400x256_1_0_0_1_n_n_wf : DotDims.WF S400x10000 S10000x256 S400x256 [1] [0] [0] [1] [] []
  dot_S400x128_S128x256_S400x256_1_0_0_1_n_n_wf : DotDims.WF S400x128 S128x256 S400x256 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .f32 = 32 ∨ (Rect.block (s := S10000x256) S400x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .f32 = 32 ∨ (Rect.block (s := S10000x256) S10000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GatedSpec.lean ====
/-
  The mathematics of a two-layer gated graph convolution, with no program in sight.

  Over the extended reals, with a dense adjacency `adj` (n × n'), a feature matrix `x` and two weight matrices
  `W` (the support) and `G` (the gate), one layer is
      out[r, j] = logistic((adj · (x · G))[r, j]) * (adj · (x · W))[r, j].
  The same layer can be computed from ONE product with the column concatenation `[W | G]`: with
  `S = x · [W | G]` (twice as wide), column `j` of `adj · S` is the support and column `d + j` the gate. The two
  agree entry by entry because a product with a concatenation, read at a column, is the product with the piece that
  column lies in: a sum of the very same terms. No distributivity, no cancelling: nothing here needs finiteness.
-/
import Idealize.ShloMosaic.PureOps.Ideal
import Idealize.ShloMosaic.Lib.ValueIdx

noncomputable section

namespace Cert.GatedSpec

open Idealize.ShloMosaic Idealize.ShloMosaic.ValueIdx

/-- A matrix over the extended reals, indexed by a rank-2 index. -/
abbrev Mat (a b : Nat) : Type := (⟨2, ![a, b]⟩ : Shape).Idx → EReal

/-- The row of a rank-2 index, typed by the literal extent. -/
def row {a b : Nat} (i : (⟨2, ![a, b]⟩ : Shape).Idx) : Fin a := i 0
/-- The column of a rank-2 index, typed by the literal extent. -/
def col {a b : Nat} (i : (⟨2, ![a, b]⟩ : Shape).Idx) : Fin b := i 1

theorem row_ix2 {a b : Nat} (r : Fin a) (c : Fin b) : row (ix2 r c) = r := rfl
theorem col_ix2 {a b : Nat} (r : Fin a) (c : Fin b) : col (ix2 r c) = c := rfl
theorem ix2_row_col {a b : Nat} (i : (⟨2, ![a, b]⟩ : Shape).Idx) : ix2 (row i) (col i) = i := (eq_ix2 i).symm

/-- Entry `(r, c)` of the product `A · B`: the sum over the shared axis. -/
def mmAt {n k m : Nat} (A : Mat n k) (B : Mat k m) (r : Fin n) (c : Fin m) : EReal :=
  ∑ q : Fin k, A (ix2 r q) * B (ix2 q c)

/-- The product `A · B` as a matrix. -/
def mm {n k m : Nat} (A : Mat n k) (B : Mat k m) : Mat n m := fun i => mmAt A B (row i) (col i)

theorem mm_ix2 {n k m : Nat} (A : Mat n k) (B : Mat k m) (r : Fin n) (c : Fin m) : mm A B (ix2 r c) = mmAt A B r c := rfl

/-- A sum over the shared axis whose two index maps are "row of `i`, then `q`" and "`q`, then column of `i`" is the
    product's entry at `i`. -/
theorem sum_eq_mm {n k m : Nat} (A : Mat n k) (B : Mat k m) (i : (⟨2, ![n, m]⟩ : Shape).Idx)
    (li : Fin k → (⟨2, ![n, k]⟩ : Shape).Idx) (ri : Fin k → (⟨2, ![k, m]⟩ : Shape).Idx)
    (hl : ∀ q, li q = ix2 (row i) q) (hr : ∀ q, ri q = ix2 q (col i)) :
    ∑ q : Fin k, A (li q) * B (ri q) = mm A B i :=
  Finset.sum_congr rfl fun q _ => by rw [hl q, hr q]

/-- Two 128-column matrices side by side: columns `0 … 127` are `W`'s, columns `128 … 255` are `G`'s. -/
def catc {k : Nat} (W G : Mat k 128) : Mat k 256 := fun i =>
  if h : (col i).val < 128 then W (ix2 (row i) ⟨(col i).val, h⟩)
  else G (ix2 (row i) ⟨(col i).val - 128, by have := (col i).isLt; omega⟩)

/-- Column `j` of the left half, as an index of the wide matrix. -/
abbrev lo (j : Fin 128) : Fin 256 := ⟨j.val, by omega⟩
/-- Column `j` of the right half, as an index of the wide matrix. -/
abbrev hi (j : Fin 128) : Fin 256 := ⟨128 + j.val, by omega⟩

theorem catc_lo {k : Nat} (W G : Mat k 128) (q : Fin k) (j : Fin 128) : catc W G (ix2 q (lo j)) = W (ix2 q j) := by
  unfold catc
  rw [dif_pos (show (col (ix2 q (lo j))).val < 128 from j.isLt)]
  rfl

theorem catc_hi {k : Nat} (W G : Mat k 128) (q : Fin k) (j : Fin 128) : catc W G (ix2 q (hi j)) = G (ix2 q j) := by
  unfold catc
  rw [dif_neg (show ¬ (col (ix2 q (hi j))).val < 128 from by show ¬ (128 + j.val < 128); omega)]
  exact congrArg G (congrArg (ix2 q) (Fin.ext (by show 128 + j.val - 128 = j.val; omega)))

/-- A product with the concatenation, read at a column of the left half, is the product with the left piece. -/
theorem mmAt_catc_lo {n k : Nat} (x : Mat n k) (W G : Mat k 128) (r : Fin n) (j : Fin 128) :
    mmAt x (catc W G) r (lo j) = mmAt x W r j :=
  Finset.sum_congr rfl fun q _ => by rw [catc_lo]

/-- … and at a column of the right half, the product with the right piece. -/
theorem mmAt_catc_hi {n k : Nat} (x : Mat n k) (W G : Mat k 128) (r : Fin n) (j : Fin 128) :
    mmAt x (catc W G) r (hi j) = mmAt x G r j :=
  Finset.sum_congr rfl fun q _ => by rw [catc_hi]

/-- A product's entry depends on the left operand through one row only: two left operands that agree on that row give
    the same entry (a block of rows of `adj`, read at its own row number, against the whole of `adj` at the array's). -/
theorem mmAt_congr_row {n n' k m : Nat} (A : Mat n k) (A' : Mat n' k) (B : Mat k m) (r : Fin n) (r' : Fin n') (c : Fin m)
    (h : ∀ q : Fin k, A (ix2 r q) = A' (ix2 r' q)) : mmAt A B r c = mmAt A' B r' c :=
  Finset.sum_congr rfl fun q _ => by rw [h q]

/-- One gated layer from the two projected matrices `P = x · W` (support) and `Q = x · G` (gate):
    `logistic((adj · Q)[r, j]) * (adj · P)[r, j]`. -/
def gate {n n' : Nat} (adj : Mat n n') (P Q : Mat n' 128) (r : Fin n) (j : Fin 128) : EReal :=
  Ideal.logistic (mmAt adj Q r j) * mmAt adj P r j

/-- The same layer from ONE wide projected matrix `S` (support in the left half, gate in the right). -/
def gateWide {n n' : Nat} (adj : Mat n n') (S : Mat n' 256) (r : Fin n) (j : Fin 128) : EReal :=
  Ideal.logistic (mmAt adj S r (hi j)) * mmAt adj S r (lo j)

/-- The fused gate of a block of rows is the fused gate of the whole matrix at the block's rows. -/
theorem gateWide_congr_row {n n' k : Nat} (A : Mat n k) (A' : Mat n' k) (S : Mat k 256) (r : Fin n) (r' : Fin n') (j : Fin 128)
    (h : ∀ q : Fin k, A (ix2 r q) = A' (ix2 r' q)) : gateWide A S r j = gateWide A' S r' j := by
  unfold gateWide
  rw [mmAt_congr_row A A' S r r' (hi j) h, mmAt_congr_row A A' S r r' (lo j) h]

/-- The fused layer IS the layer: with `S = x · [W | G]`, the right half of `adj · S` is `adj · (x · G)` and the left
    half `adj · (x · W)`, term by term. -/
theorem gateWide_mm_catc {n n' k : Nat} (adj : Mat n n') (x : Mat n' k) (W G : Mat k 128) (r : Fin n) (j : Fin 128) :
    gateWide adj (mm x (catc W G)) r j = gate adj (mm x W) (mm x G) r j := by
  unfold gateWide gate
  have e1 : mmAt adj (mm x (catc W G)) r (hi j) = mmAt adj (mm x G) r j :=
    Finset.sum_congr rfl fun q _ => by rw [mm_ix2, mm_ix2, mmAt_catc_hi]
  have e2 : mmAt adj (mm x (catc W G)) r (lo j) = mmAt adj (mm x W) r j :=
    Finset.sum_congr rfl fun q _ => by rw [mm_ix2, mm_ix2, mmAt_catc_lo]
  rw [e1, e2]

/-! ## The two layers -/

/-- The hidden layer: the gated layer of `x`, clamped below at zero. -/
def hidden {n k : Nat} (x : Mat n k) (adj : Mat n n) (W0 G0 : Mat k 128) : Mat n 128 :=
  fun i => max (gate adj (mm x W0) (mm x G0) (row i) (col i)) 0

/-- The result: the gated layer of the hidden layer, not clamped. -/
def logits {n k : Nat} (x : Mat n k) (adj : Mat n n) (W0 G0 : Mat k 128) (W1 G1 : Mat 128 128) : Mat n 128 :=
  fun i => gate adj (mm (hidden x adj W0 G0) W1) (mm (hidden x adj W0 G0) G1) (row i) (col i)

/-- The hidden layer computed the fused way, from the wide projection `S0 = x · [W0 | G0]`. -/
def hiddenWide {n : Nat} (adj : Mat n n) (S0 : Mat n 256) : Mat n 128 :=
  fun i => max (gateWide adj S0 (row i) (col i)) 0

/-- The fused program's result: project, gate and clamp, project again, gate. -/
def logitsWide {n k : Nat} (x : Mat n k) (adj : Mat n n) (WG0 : Mat k 256) (WG1 : Mat 128 256) : Mat n 128 :=
  fun i => gateWide adj (mm (hiddenWide adj (mm x WG0)) WG1) (row i) (col i)

theorem hiddenWide_eq {n k : Nat} (x : Mat n k) (adj : Mat n n) (W0 G0 : Mat k 128) :
    hiddenWide adj (mm x (catc W0 G0)) = hidden x adj W0 G0 := by
  funext i
  unfold hiddenWide hidden
  rw [gateWide_mm_catc]

/-- THE LAW: the fused computation over the concatenated weights is the two-layer gated convolution. -/
theorem logitsWide_eq {n k : Nat} (x : Mat n k) (adj : Mat n n) (W0 G0 : Mat k 128) (W1 G1 : Mat 128 128) :
    logitsWide x adj (catc W0 G0) (catc W1 G1) = logits x adj W0 G0 W1 G1 := by
  funext i
  unfold logitsWide logits
  rw [hiddenWide_eq, gateWide_mm_catc]

end Cert.GatedSpec

end
-- ==== Proof.RefValue.lean ====
/-
  The reference, read as mathematics: its result array is the two-layer gated graph convolution `logits`.

  The reference computes each layer from four separate products: `x · W`, `x · G`, `adj · (x · W)`, `adj · (x · G)`.
  Its sigmoid is spelt out as `1 / (1 + exp(-z))`, which over the extended reals IS the logistic function (with its values
  `0` at `-∞` and `1` at `+∞`), and its relu as the maximum with zero. Stage by stage: each `dot_general` is a matrix
  product read at an index, each pointwise stage is read at the same index, and the literal words `1.0` and `0.0`
  denote one and zero.
-/
import proofs.«167993_g21887153340606_cont_8to1_464_3_alg».proof.Proof.Gen.ReferenceIdeal.Read
import proofs.«167993_g21887153340606_cont_8to1_464_3_alg».proof.Proof.GatedSpec

noncomputable section

namespace Cert.ReferenceIdeal.RefValue

open Cert.ReferenceIdeal Cert.ReferenceIdeal.Gen Cert.ReferenceIdeal.Read Cert.GatedSpec
open Idealize.ShloMosaic Idealize.ShloMosaic.ValueIdx

/-- The word `0x3F800000` is the number one. -/
theorem one_eq : FloatOps.ofBits (F := Ideal) .f32 0x3F800000#32 = (1 : EReal) := by
  show Ideal.ofBits .f32 0x3F800000#32 = 1
  simp [Ideal.ofBits, Ideal.ieee, -EReal.coe_mul]; norm_num

/-- The word `0x00000000` is the number zero. -/
theorem zero_eq : FloatOps.ofBits (F := Ideal) .f32 0x00000000#32 = (0 : EReal) := Ideal.ofBits_zero_f32

variable (x : Mat 10000 128) (adj : Mat 10000 10000) (W0 G0 W1 G1 : Mat 128 128)

/-! ## Layer 0 -/

theorem v0_eq : val_main_v0 (F := Ideal) x W0 = mm x W0 := by
  funext i
  rw [val_main_v0_apply]
  exact sum_eq_mm x W0 i _ _ (fun q => funext fun a => by match a with | ⟨0, _⟩ => rfl | ⟨1, _⟩ => rfl) (fun q => funext fun a => by match a with | ⟨0, _⟩ => rfl | ⟨1, _⟩ => rfl)

theorem v1_eq : val_main_v1 (F := Ideal) x G0 = mm x G0 := by
  funext i
  rw [val_main_v1_apply]
  exact sum_eq_mm x G0 i _ _ (fun q => funext fun a => by match a with | ⟨0, _⟩ => rfl | ⟨1, _⟩ => rfl) (fun q => funext fun a => by match a with | ⟨0, _⟩ => rfl | ⟨1, _⟩ => rfl)

theorem v2_eq : val_main_v2 (F := Ideal) x adj W0 = mm adj (mm x W0) := by
  funext i
  rw [val_main_v2_apply, v0_eq]
  exact sum_eq_mm adj (mm x W0) i _ _ (fun q => funext fun a => by match a with | ⟨0, _⟩ => rfl | ⟨1, _⟩ => rfl) (fun q => funext fun a => by match a with | ⟨0, _⟩ => rfl | ⟨1, _⟩ => rfl)

theorem v3_eq : val_main_v3 (F := Ideal) x adj G0 = mm adj (mm x G0) := by
  funext i
  rw [val_main_v3_apply, v1_eq]
  exact sum_eq_mm adj (mm x G0) i _ _ (fun q => funext fun a => by match a with | ⟨0, _⟩ => rfl | ⟨1, _⟩ => rfl) (fun q => funext fun a => by match a with | ⟨0, _⟩ => rfl | ⟨1, _⟩ => rfl)

/-- The reference's spelt-out sigmoid of the gate product is the logistic function of it. -/
theorem v9_apply (i : S10000x128.Idx) : val_main_v9 (F := Ideal) x adj G0 i = Ideal.logistic (val_main_v3 (F := Ideal) x adj G0 i) := by
  rw [val_main_v9_apply, val_main_v8_apply, val_main_cst_0_apply, val_main_v7_apply, val_main_v6_apply, val_main_cst_apply,
    val_main_v5_apply, val_main_v4_apply, one_eq]
  rfl

/-- The hidden layer: gate, multiply, clamp at zero. -/
theorem v11_eq : val_main_v11 (F := Ideal) x adj W0 G0 = hidden x adj W0 G0 := by
  funext i
  rw [val_main_v11_apply, val_main_call0_v0_apply, val_main_call0_cst_apply, val_main_v10_apply, v9_apply, v3_eq, v2_eq, zero_eq]
  rfl

/-! ## Layer 1 -/

theorem v12_eq : val_main_v12 (F := Ideal) x adj W0 G0 W1 = mm (hidden x adj W0 G0) W1 := by
  funext i
  rw [val_main_v12_apply, v11_eq]
  exact sum_eq_mm (hidden x adj W0 G0) W1 i _ _ (fun q => funext fun a => by match a with | ⟨0, _⟩ => rfl | ⟨1, _⟩ => rfl) (fun q => funext fun a => by match a with | ⟨0, _⟩ => rfl | ⟨1, _⟩ => rfl)

theorem v13_eq : val_main_v13 (F := Ideal) x adj W0 G0 G1 = mm (hidden x adj W0 G0) G1 := by
  funext i
  rw [val_main_v13_apply, v11_eq]
  exact sum_eq_mm (hidden x adj W0 G0) G1 i _ _ (fun q => funext fun a => by match a with | ⟨0, _⟩ => rfl | ⟨1, _⟩ => rfl) (fun q => funext fun a => by match a with | ⟨0, _⟩ => rfl | ⟨1, _⟩ => rfl)

theorem v14_eq : val_main_v14 (F := Ideal) x adj W0 G0 W1 = mm adj (mm (hidden x adj W0 G0) W1) := by
  funext i
  rw [val_main_v14_apply, v12_eq]
  exact sum_eq_mm adj (mm (hidden x adj W0 G0) W1) i _ _ (fun q => funext fun a => by match a with | ⟨0, _⟩ => rfl | ⟨1, _⟩ => rfl) (fun q => funext fun a => by match a with | ⟨0, _⟩ => rfl | ⟨1, _⟩ => rfl)

theorem v15_eq : val_main_v15 (F := Ideal) x adj W0 G0 G1 = mm adj (mm (hidden x adj W0 G0) G1) := by
  funext i
  rw [val_main_v15_apply, v13_eq]
  exact sum_eq_mm adj (mm (hidden x adj W0 G0) G1) i _ _ (fun q => funext fun a => by match a with | ⟨0, _⟩ => rfl | ⟨1, _⟩ => rfl) (fun q => funext fun a => by match a with | ⟨0, _⟩ => rfl | ⟨1, _⟩ => rfl)

theorem v21_apply (i : S10000x128.Idx) :
    val_main_v21 (F := Ideal) x adj W0 G0 G1 i = Ideal.logistic (val_main_v15 (F := Ideal) x adj W0 G0 G1 i) := by
  rw [val_main_v21_apply, val_main_v20_apply, val_main_cst_2_apply, val_main_v19_apply, val_main_v18_apply, val_main_cst_1_apply,
    val_main_v17_apply, val_main_v16_apply, one_eq]
  rfl

/-- THE REFERENCE'S RESULT is the two-layer gated graph convolution of its arguments. -/
theorem v22_eq : val_main_v22 (F := Ideal) x adj W0 G0 W1 G1 = logits x adj W0 G0 W1 G1 := by
  funext i
  rw [val_main_v22_apply, v21_apply, v15_eq, v14_eq]
  rfl

end Cert.ReferenceIdeal.RefValue

end
-- ==== Proof.KernelOps.lean ====
/-
  The idealized kernel's operations read at an index, over the extended reals.

  Each of the three kernel bodies stores one value. Read at row `r` and column `c`:
  * the projection body stores `(x · wg)[r, c]`, a sum over the 128 shared columns;
  * the gated body stores `logistic((a · s)[r, 128 + c]) * (a · s)[r, c]`: the right half of the 256-wide product gates
    the left half;
  * the gated-and-projected body clamps that value below at zero and multiplies the clamped row into `wg`.
  A matrix product into a zero accumulator is the plain sum; a column slice reads the source at the shifted column; the
  identity reshape does nothing; the concatenation of two 128-column matrices reads the piece its column lies in.
-/
import proofs.«167993_g21887153340606_cont_8to1_464_3_alg».proof.Proof.Gen.KernelIdeal.Skeleton
import proofs.«167993_g21887153340606_cont_8to1_464_3_alg».proof.Proof.GatedSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ops

open Cert.KernelIdeal Cert.KernelIdeal.Gen Cert.GatedSpec
open Idealize.ShloMosaic Idealize.ShloMosaic.ValueIdx

/-! ## A matrix product into the zero accumulator is the sum over the shared axis -/

/-- For dimension numbers that contract the left operand's columns with the right operand's rows (the four axis facts
    `h00 … h11`), the product into a zero accumulator, read at `(r, c)`, is `∑ q, A[r, q] * B[q, c]`. -/
theorem matmul_zero_at {n k m : Nat} (D : DotDims ⟨2, ![n, k]⟩ ⟨2, ![k, m]⟩ ⟨2, ![n, m]⟩)
    (hr : D.contr.rank = 1) (hs : D.contr.size ⟨0, by omega⟩ = k)
    (h00 : ∀ (i : (⟨2, ![n, m]⟩ : Shape).Idx) (q : D.contr.Idx), (D.lhsIdx i q 0).val = (i 0).val)
    (h01 : ∀ (i : (⟨2, ![n, m]⟩ : Shape).Idx) (q : D.contr.Idx), (D.lhsIdx i q 1).val = (q ⟨0, by omega⟩).val)
    (h10 : ∀ (i : (⟨2, ![n, m]⟩ : Shape).Idx) (q : D.contr.Idx), (D.rhsIdx i q 0).val = (q ⟨0, by omega⟩).val)
    (h11 : ∀ (i : (⟨2, ![n, m]⟩ : Shape).Idx) (q : D.contr.Idx), (D.rhsIdx i q 1).val = (i 1).val)
    (A : Mat n k) (B : Mat k m) (r : Fin n) (c : Fin m) :
    matmul (F := Ideal) (φ₁ := .f32) (φ₂ := .f32) D none A B (constant ⟨2, ![n, m]⟩ .f32 0x00000000#32) (ix2 r c) = mmAt A B r c := by
  show FloatOps.matmul (F := Ideal) (φ₁ := .f32) (φ₂ := .f32) D none A B (constant ⟨2, ![n, m]⟩ .f32 0x00000000#32) (ix2 r c) = _
  rw [Ideal.matmul_constant_zero_apply, ← Equiv.sum_comp (ValueIdx.contrEquiv1 D k hr hs).symm]
  unfold mmAt
  refine Finset.sum_congr rfl fun q _ => ?_
  have hk := ValueIdx.contrEquiv1_symm_val D k hr hs q
  have el : D.lhsIdx (ix2 r c) ((ValueIdx.contrEquiv1 D k hr hs).symm q) = ix2 r q := funext fun a => Fin.ext (by
    match a with
    | ⟨0, _⟩ => exact h00 _ _
    | ⟨1, _⟩ => exact (h01 _ _).trans hk)
  have er : D.rhsIdx (ix2 r c) ((ValueIdx.contrEquiv1 D k hr hs).symm q) = ix2 q c := funext fun a => Fin.ext (by
    match a with
    | ⟨0, _⟩ => exact (h10 _ _).trans hk
    | ⟨1, _⟩ => exact h11 _ _)
  rw [el, er]

/-! ### The three products of this program: their axis facts, at the literal axes -/

theorem lhs_proj_0 (i : S10000x256.Idx) (q : dot_S10000x128_S128x256_S10000x256_1_0_0_1_n_n.contr.Idx) :
    (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
theorem lhs_proj_1 (i : S10000x256.Idx) (q : dot_S10000x128_S128x256_S10000x256_1_0_0_1_n_n.contr.Idx) :
    (dot_S10000x128_S128x256_S10000x256_1_0_0_1_n_n.lhsIdx i q 1).val = (q ⟨0, by decide⟩).val :=
  dot_S10000x128_S128x256_S10000x256_1_0_0_1_n_n.lhsIdx_val_of_single rfl i q
theorem rhs_proj_0 (i : S10000x256.Idx) (q : dot_S10000x128_S128x256_S10000x256_1_0_0_1_n_n.contr.Idx) :
    (dot_S10000x128_S128x256_S10000x256_1_0_0_1_n_n.rhsIdx i q 0).val = (q ⟨0, by decide⟩).val :=
  dot_S10000x128_S128x256_S10000x256_1_0_0_1_n_n.rhsIdx_val_of_single rfl i q
theorem rhs_proj_1 (i : S10000x256.Idx) (q : dot_S10000x128_S128x256_S10000x256_1_0_0_1_n_n.contr.Idx) :
    (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- The projection `x · wg` (10000×128 by 128×256) at an entry. -/
theorem matmul_proj_at (A : Mat 10000 128) (B : Mat 128 256) (r : Fin 10000) (c : Fin 256) :
    matmul (F := Ideal) (φ₁ := .f32) (φ₂ := .f32) dot_S10000x128_S128x256_S10000x256_1_0_0_1_n_n none A B (constant S10000x256 .f32 0x00000000#32) (ix2 r c) = mmAt A B r c :=
  matmul_zero_at dot_S10000x128_S128x256_S10000x256_1_0_0_1_n_n rfl rfl lhs_proj_0 lhs_proj_1 rhs_proj_0 rhs_proj_1 A B r c

theorem lhs_agg_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhs_agg_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem rhs_agg_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhs_agg_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The aggregation `a · s` of a 400-row block of the adjacency (400×10000 by 10000×256) at an entry. -/
theorem matmul_agg_at (A : Mat 400 10000) (B : Mat 10000 256) (r : Fin 400) (c : Fin 256) :
    matmul (F := Ideal) (φ₁ := .f32) (φ₂ := .f32) dot_S400x10000_S10000x256_S400x256_1_0_0_1_n_n none A B (constant S400x256 .f32 0x00000000#32) (ix2 r c) = mmAt A B r c :=
  matmul_zero_at dot_S400x10000_S10000x256_S400x256_1_0_0_1_n_n rfl rfl lhs_agg_0 lhs_agg_1 rhs_agg_0 rhs_agg_1 A B r c

theorem lhs_next_0 (i : S400x256.Idx) (q : dot_S400x128_S128x256_S400x256_1_0_0_1_n_n.contr.Idx) :
    (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
theorem lhs_next_1 (i : S400x256.Idx) (q : dot_S400x128_S128x256_S400x256_1_0_0_1_n_n.contr.Idx) :
    (dot_S400x128_S128x256_S400x256_1_0_0_1_n_n.lhsIdx i q 1).val = (q ⟨0, by decide⟩).val :=
  dot_S400x128_S128x256_S400x256_1_0_0_1_n_n.lhsIdx_val_of_single rfl i q
theorem rhs_next_0 (i : S400x256.Idx) (q : dot_S400x128_S128x256_S400x256_1_0_0_1_n_n.contr.Idx) :
    (dot_S400x128_S128x256_S400x256_1_0_0_1_n_n.rhsIdx i q 0).val = (q ⟨0, by decide⟩).val :=
  dot_S400x128_S128x256_S400x256_1_0_0_1_n_n.rhsIdx_val_of_single rfl i q
theorem rhs_next_1 (i : S400x256.Idx) (q : dot_S400x128_S128x256_S400x256_1_0_0_1_n_n.contr.Idx) :
    (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl

/-- The next layer's projection `h · wg` of a 400-row block (400×128 by 128×256) at an entry. -/
theorem matmul_next_at (A : Mat 400 128) (B : Mat 128 256) (r : Fin 400) (c : Fin 256) :
    matmul (F := Ideal) (φ₁ := .f32) (φ₂ := .f32) dot_S400x128_S128x256_S400x256_1_0_0_1_n_n none A B (constant S400x256 .f32 0x00000000#32) (ix2 r c) = mmAt A B r c :=
  matmul_zero_at dot_S400x128_S128x256_S400x256_1_0_0_1_n_n rfl rfl lhs_next_0 lhs_next_1 rhs_next_0 rhs_next_1 A B r c

/-! ## The concatenation of the two weight matrices -/

/-- The printed column concatenation of two 128×128 matrices is `catc`: left piece on columns below 128, right piece
    above. -/
theorem concatenate_eq_catc (W G : Mat 128 128) :
    concatenate S128x256 1 [⟨S128x128, W⟩, ⟨S128x128, G⟩] Facts₀.concatenates_S128x128_S128x128_S128x256_d1 = catc W G := by
  funext i
  obtain ⟨p, c, rfl⟩ : ∃ (p : Fin 128) (c : Fin 256), i = ix2 p c := ⟨i 0, i 1, eq_ix2 i⟩
  by_cases hc : c.val < 128
  · have e : c = lo ⟨c.val, hc⟩ := Fin.ext rfl
    rw [e, catc_lo]
    exact concatenate_pair_apply_left (t := S128x256) (s₁ := S128x128) (s₂ := S128x128) 1 W G _ _ rfl (ix2 p ⟨c.val, hc⟩) (fun b => by
      match b with
      | ⟨0, _⟩ => rfl
      | ⟨1, _⟩ => rfl)
  · have hc' : c.val - 128 < 128 := by have := c.isLt; omega
    have e : c = hi ⟨c.val - 128, hc'⟩ := Fin.ext (by show c.val = 128 + (c.val - 128); omega)
    rw [e, catc_hi]
    exact concatenate_pair_apply_right (t := S128x256) (s₁ := S128x128) (s₂ := S128x128) 1 W G _ _ rfl rfl (ix2 p ⟨c.val - 128, hc'⟩) (fun b hb => by
      match b with
      | ⟨0, _⟩ => rfl
      | ⟨1, _⟩ => exact absurd rfl hb) (by show (c.val - 128) + 128 = 128 + (c.val - 128); omega)

/-! ## The three payloads at an entry -/

/-- The projection body stores `x · wg`. -/
theorem proj_pay_at (x : Mat 10000 128) (wg : Mat 128 256) (r : Fin 10000) (c : Fin 256) :
    k0_pay1 (F := Ideal) x wg (ix2 r c) = mmAt x wg r c := by
  unfold k0_pay1
  rw [shapeCast_self]
  exact matmul_proj_at x wg r c

/-- Gating a 256-wide matrix: the right half through the logistic, times the left half, entry by entry. -/
theorem gate_of_wide_at (M : Mat 400 256) (r : Fin 400) (j : Fin 128) :
    mulf (F := Ideal) (φ := .f32)
        (logistic (F := Ideal) (φ := .f32) (extractStridedSlice S400x128 ![0, 128] M Facts₀.slices_S400x256_o0_128_S400x128))
        (extractStridedSlice S400x128 ![0, 0] M Facts₀.slices_S400x256_o0_0_S400x128) (ix2 r j)
      = Ideal.logistic (M (ix2 r (hi j))) * M (ix2 r (lo j)) := by
  show FloatOps.mulf (F := Ideal) (φ := .f32)
      (FloatOps.logistic (F := Ideal) (φ := .f32) (extractStridedSlice S400x128 ![0, 128] M Facts₀.slices_S400x256_o0_128_S400x128 (ix2 r j)))
      (extractStridedSlice S400x128 ![0, 0] M Facts₀.slices_S400x256_o0_0_S400x128 (ix2 r j)) = _
  rw [slice2_axis1_apply 128 M Facts₀.slices_S400x256_o0_128_S400x128 r j (hi j) rfl,
    slice2_axis1_apply 0 M Facts₀.slices_S400x256_o0_0_S400x128 r j (lo j) (by show j.val = 0 + j.val; omega)]
  rfl

/-- The gate of a 400-row block: the right half of `a · s` through the logistic, times the left half. -/
theorem gated_pay_at (a : Mat 400 10000) (s : Mat 10000 256) (r : Fin 400) (j : Fin 128) :
    k2_pay1 (F := Ideal) a s (ix2 r j) = gateWide a s r j := by
  unfold k2_pay1
  rw [shapeCast_self]
  refine (gate_of_wide_at _ r j).trans ?_
  rw [matmul_agg_at, matmul_agg_at]
  rfl

/-- The clamped gate of a 400-row block, as a matrix: what the second product's left operand is. -/
def clampedGate (a : Mat 400 10000) (s : Mat 10000 256) : Mat 400 128 := fun i => max (gateWide a s (row i) (col i)) 0

/-- The body's clamped gate, as the body spells it, is that matrix. -/
theorem clamped_eq (a : Mat 400 10000) (s : Mat 10000 256) :
    maximumf (F := Ideal) (φ := .f32)
      (mulf (F := Ideal) (φ := .f32)
        (logistic (F := Ideal) (φ := .f32) (extractStridedSlice S400x128 ![0, 128]
          (matmul (F := Ideal) (φ₁ := .f32) (φ₂ := .f32) dot_S400x10000_S10000x256_S400x256_1_0_0_1_n_n none a s (constant S400x256 .f32 0x00000000#32)) Facts₀.slices_S400x256_o0_128_S400x128))
        (extractStridedSlice S400x128 ![0, 0]
          (matmul (F := Ideal) (φ₁ := .f32) (φ₂ := .f32) dot_S400x10000_S10000x256_S400x256_1_0_0_1_n_n none a s (constant S400x256 .f32 0x00000000#32)) Facts₀.slices_S400x256_o0_0_S400x128))
      (broadcast S400x128 (FloatOps.ofBits (F := Ideal) .f32 0x00000000#32)) = clampedGate a s := by
  funext i
  obtain ⟨p, q, rfl⟩ : ∃ (p : Fin 400) (q : Fin 128), i = ix2 p q := ⟨i 0, i 1, eq_ix2 i⟩
  show max (mulf (F := Ideal) (φ := .f32) _ _ (ix2 p q)) (Ideal.ofBits .f32 0x00000000#32) = max (gateWide a s p q) 0
  rw [gate_of_wide_at, matmul_agg_at, matmul_agg_at, Ideal.ofBits_zero_f32]
  rfl

/-- The gated-and-projected body stores the clamped gate times `wg`. -/
theorem gated_proj_pay_at (a : Mat 400 10000) (s : Mat 10000 256) (wg : Mat 128 256) (r : Fin 400) (c : Fin 256) :
    k1_pay1 (F := Ideal) a s wg (ix2 r c) = mmAt (clampedGate a s) wg r c := by
  unfold k1_pay1
  rw [shapeCast_self, shapeCast_self]
  refine Eq.trans ?_ (matmul_next_at (clampedGate a s) wg r c)
  exact congrArg (fun h : Mat 400 128 => matmul (F := Ideal) (φ₁ := .f32) (φ₂ := .f32) dot_S400x128_S128x256_S400x256_1_0_0_1_n_n none h wg (constant S400x256 .f32 0x00000000#32) (ix2 r c)) (clamped_eq a s)

end Cert.KernelIdeal.Ops

end
-- ==== Proof.Region0.lean ====
/-
  The first kernel region (the input projection), as a function of the arrays it is entered with.

  The region has no grid: its one point is handed the whole of `x` (10000×128) and the whole of the concatenated weights
  `wg` (128×256) and writes the whole 10000×256 result, the product `x · wg`.
-/
import proofs.«167993_g21887153340606_cont_8to1_464_3_alg».proof.Proof.Gen.KernelIdeal.Frame
import proofs.«167993_g21887153340606_cont_8to1_464_3_alg».proof.Proof.KernelOps
import Idealize.ShloMosaic.Lib.Pipeline.Value

set_option maxRecDepth 16384

noncomputable section

namespace Cert.KernelIdeal.Region0

open Cert.KernelIdeal Cert.KernelIdeal.Gen Cert.GatedSpec Cert.KernelIdeal.Ops
open Idealize.ShloMosaic Idealize.ShloMosaic.TcCoe Idealize.ShloMosaic.ValueIdx Idealize.SL.Sem
open Idealize.ShloMosaic.Pipeline (Dat Cfg Window)

-- the buffer contents the region is entered from: the parameter every statement below is made at
variable (V : (c : Dev nD) → (b : Ref sig .tc) → Buf (Elt Ideal) ((c : Thread nD τ).loc b))

theorem zero_offsets : (![0, 0] : Fin 2 → Nat) = fun _ => 0 := funext fun a => by fin_cases a <;> rfl

/-- The features and the weights as the region finds them. -/
abbrev xArr (c : Dev nD) : Mat 10000 128 := V c (Pipeline.arrRef spec0 0)
abbrev wgArr (c : Dev nD) : Mat 128 256 := V c (Pipeline.arrRef spec0 1)
/-- The one point's blocks of them. -/
abbrev xBlk (c : Dev nD) (t : Fin cfg0.N) : Mat 10000 128 := iblk0 V c 0 t
abbrev wgBlk (c : Dev nD) (t : Fin cfg0.N) : Mat 128 256 := iblk0 V c 1 t

/-- Every block index is zero: each window's block is its whole array. -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem xBlk_eq (c : Dev nD) (t : Fin cfg0.N) : xBlk V c t = xArr V c := by
  obtain ⟨e0, e1, -, -, -, -⟩ := index_facts t
  funext y
  show V c (Pipeline.arrRef spec0 0) (((cfg0.win 0).blk t).view.emb y) = V c (Pipeline.arrRef spec0 0) y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem wgBlk_eq (c : Dev nD) (t : Fin cfg0.N) : wgBlk V c t = wgArr V c := by
  obtain ⟨-, -, e2, e3, -, -⟩ := index_facts t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- What the region leaves in its result array: the product of the two arrays it was entered with. -/
def result (c : Dev nD) : Mat 10000 256 := mm (xArr V c) (wgArr V c)

/-- WHAT THE POINT WRITES BACK is the whole of `result`. -/
theorem flushed_eq (c : Dev nD) (t : Fin cfg0.N) :
    (dat0 V c).flushed 2 t = ((cfg0.win 2).blk t).view.read (Elt Ideal) (result V c) := by
  obtain ⟨-, -, -, -, e4, e5⟩ := index_facts t
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x256) zero_offsets]
  funext y
  have key : ∀ y' : S10000x256.Idx, k0_pay1 (F := Ideal) (xBlk V c t) (wgBlk V c t) y'
      = result V c (((cfg0.win 2).blk t).view.emb y') := by
    intro y'
    obtain ⟨p, j, rfl⟩ : ∃ (p : Fin 10000) (j : Fin 256), y' = ix2 p j := ⟨y' 0, y' 1, eq_ix2 y'⟩
    refine (proj_pay_at (xBlk V c t) (wgBlk V c t) p j).trans ?_
    refine (congrArg (fun X : Mat 10000 128 => mmAt X (wgBlk V c t) p j) (xBlk_eq V c t)).trans ?_
    refine (congrArg (fun W : Mat 128 256 => mmAt (xArr V c) W p j) (wgBlk_eq V c t)).trans ?_
    have hr : p = row (((cfg0.win 2).blk t).view.emb (ix2 p j)) :=
      Fin.ext (by show p.val = win0_2.index t (0 : Fin 2) * 10000 + 1 * p.val; omega)
    have hc : j = col (((cfg0.win 2).blk t).view.emb (ix2 p j)) :=
      Fin.ext (by show j.val = win0_2.index t (1 : Fin 2) * 256 + 1 * j.val; omega)
    show mmAt (xArr V c) (wgArr V c) p j = mmAt (xArr V c) (wgArr V c) (row _) (col _)
    rw [← hr, ← hc]
  exact key y

/-- An index of the result array is in the point's block iff each coordinate is in the block's range. -/
theorem mem_blk (t : Fin cfg0.N) (i : S10000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v2).slice (win0_2.rect t)).set ↔ _
  rw [View.set_slice_whole, Rect.mem_set_unit]
  exact Iff.rfl

/-- The one block is the whole array. -/
theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  let t : Fin cfg0.N := ⟨0, by decide⟩
  obtain ⟨-, -, -, -, e4, e5⟩ := index_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- THE RESULT ARRAY after the region: the product of the arrays it was entered with. -/
theorem final (c : Dev nD) : (dat0 V c).arrAt 2 cfg0.N = result V c :=
  (dat0 V c).arrAt_eq_of_cover 2 (result V c) (fun t _ => flushed_eq V c t) (cover)

end Cert.KernelIdeal.Region0

end
-- ==== Proof.Region1.lean ====
/-
  The middle kernel region (gate, clamp at zero, project into the next layer), as a function of the arrays it is entered
  with.

  The region runs 25 grid points. Point `t` is handed rows `400·t … 400·t + 399` of the adjacency, the whole 256-wide
  matrix `s` and the whole 128×256 weight matrix `wg`, and writes rows `400·t … 400·t + 399` of the result: the clamped
  fused gate of its adjacency block, a 400×128 matrix, times `wg`. Row `p` of the block's clamped gate is row `400·t + p` of
  the clamped gate of the whole adjacency, and a product's entry reads its left operand along one row only; the 25 blocks
  tile the 10000 rows, so the result array ends holding (clamped gate of the whole) · `wg`.
-/
import proofs.«167993_g21887153340606_cont_8to1_464_3_alg».proof.Proof.Gen.KernelIdeal.Frame
import proofs.«167993_g21887153340606_cont_8to1_464_3_alg».proof.Proof.KernelOps
import Idealize.ShloMosaic.Lib.Pipeline.Value

set_option maxRecDepth 16384

noncomputable section

namespace Cert.KernelIdeal.Region1

open Cert.KernelIdeal Cert.KernelIdeal.Gen Cert.GatedSpec Cert.KernelIdeal.Ops
open Idealize.ShloMosaic Idealize.ShloMosaic.TcCoe Idealize.ShloMosaic.ValueIdx Idealize.SL.Sem
open Idealize.ShloMosaic.Pipeline (Dat Cfg Window)

-- the buffer contents the region is entered from: the parameter every statement below is made at
variable (V : (c : Dev nD) → (b : Ref sig .tc) → Buf (Elt Ideal) ((c : Thread nD τ).loc b))

theorem zero_offsets : (![0, 0] : Fin 2 → Nat) = fun _ => 0 := funext fun a => by fin_cases a <;> rfl

/-- The adjacency, the wide matrix and the weights as the region finds them. -/
abbrev adjArr (c : Dev nD) : Mat 10000 10000 := V c (Pipeline.arrRef spec1 0)
abbrev wideArr (c : Dev nD) : Mat 10000 256 := V c (Pipeline.arrRef spec1 1)
abbrev wgArr (c : Dev nD) : Mat 128 256 := V c (Pipeline.arrRef spec1 2)
/-- Point `t`'s blocks of them. -/
abbrev adjBlk (c : Dev nD) (t : Fin cfg1.N) : Mat 400 10000 := iblk1 V c 0 t
abbrev wideBlk (c : Dev nD) (t : Fin cfg1.N) : Mat 10000 256 := iblk1 V c 1 t
abbrev wgBlk (c : Dev nD) (t : Fin cfg1.N) : Mat 128 256 := iblk1 V c 2 t

/-- The printed index maps over the 25 points: the adjacency's and the result's block row is the point's number, every
    other block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 25 := t.isLt

/-- Row `p` of point `t`'s block, as a row of the array. -/
abbrev arrRow (t : Fin cfg1.N) (p : Fin 400) : Fin 10000 := ⟨400 * t.val + p.val, by have := point_lt t; omega⟩

/-- Row `p` of point `t`'s adjacency block is row `400·t + p` of the adjacency. -/
theorem adjBlk_at (c : Dev nD) (t : Fin cfg1.N) (p : Fin 400) (k : Fin 10000) :
    adjBlk V c t (ix2 p k) = adjArr V c (ix2 (arrRow t p) k) := by
  obtain ⟨e0, e1, -, -, -, -, -, -⟩ := index_facts t
  show V c (Pipeline.arrRef spec1 0) (((cfg1.win 0).blk t).view.emb (ix2 p k)) = V c (Pipeline.arrRef spec1 0) (ix2 (arrRow t p) k)
  refine congrArg _ (funext fun a => Fin.ext ?_)
  match a with
  | ⟨0, _⟩ => show win1_0.index t (0 : Fin 2) * 400 + 1 * p.val = 400 * t.val + p.val; omega
  | ⟨1, _⟩ => show win1_0.index t (1 : Fin 2) * 10000 + 1 * k.val = k.val; omega

/-- The wide matrix's block is the whole of it. -/
theorem wideBlk_eq (c : Dev nD) (t : Fin cfg1.N) : wideBlk V c t = wideArr V c := by
  obtain ⟨-, -, e2, e3, -, -, -, -⟩ := index_facts t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 256 + 1 * (y 1).val = (y 1).val; omega

/-- The weights' block is the whole of them. -/
theorem wgBlk_eq (c : Dev nD) (t : Fin cfg1.N) : wgBlk V c t = wgArr V c := by
  obtain ⟨-, -, -, -, e4, e5, -, -⟩ := index_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 256 + 1 * (y 1).val = (y 1).val; omega

/-- What the region leaves in its result array: the clamped fused gate of the adjacency and the wide matrix, times the
    weights. -/
def result (c : Dev nD) : Mat 10000 256 := mm (hiddenWide (adjArr V c) (wideArr V c)) (wgArr V c)

/-- Row `p` of the block's clamped gate is row `400·t + p` of the whole adjacency's. -/
theorem clamped_row (c : Dev nD) (t : Fin cfg1.N) (p : Fin 400) (l : Fin 128) :
    clampedGate (adjBlk V c t) (wideArr V c) (ix2 p l) = hiddenWide (adjArr V c) (wideArr V c) (ix2 (arrRow t p) l) :=
  congrArg (fun z : EReal => max z 0)
    (gateWide_congr_row (adjBlk V c t) (adjArr V c) (wideArr V c) p (arrRow t p) l (fun k => adjBlk_at V c t p k))

/-- Point `t`'s stored value at `(p, j)` is the result at `(400·t + p, j)`. -/
theorem point_at (c : Dev nD) (t : Fin cfg1.N) (p : Fin 400) (j : Fin 256) :
    k1_pay1 (F := Ideal) (adjBlk V c t) (wideBlk V c t) (wgBlk V c t) (ix2 p j)
      = mmAt (hiddenWide (adjArr V c) (wideArr V c)) (wgArr V c) (arrRow t p) j :=
  (gated_proj_pay_at (adjBlk V c t) (wideBlk V c t) (wgBlk V c t) p j).trans
    ((congrArg (fun S : Mat 10000 256 => mmAt (clampedGate (adjBlk V c t) S) (wgBlk V c t) p j) (wideBlk_eq V c t)).trans
      ((congrArg (fun W : Mat 128 256 => mmAt (clampedGate (adjBlk V c t) (wideArr V c)) W p j) (wgBlk_eq V c t)).trans
        (mmAt_congr_row (clampedGate (adjBlk V c t) (wideArr V c)) (hiddenWide (adjArr V c) (wideArr V c)) (wgArr V c) p (arrRow t p) j
          (fun l => clamped_row V c t p l))))

/-- WHAT POINT `t` WRITES BACK is block `t` of `result`. -/
theorem flushed_eq (c : Dev nD) (t : Fin cfg1.N) :
    (dat1 V c).flushed 3 t = ((cfg1.win 3).blk t).view.read (Elt Ideal) (result V c) := by
  obtain ⟨-, -, -, -, -, -, e6, e7⟩ := index_facts t
  show (cfg1.win 3).cut (grid1.coords t) ((dat1 V c).after 3 t) = _
  rw [after1_3]
  unfold out1_3
  rw [View.canon_unit_zero zero_offsets]
  simp only [View.ld_unit_zero (S := S400x10000) zero_offsets, View.ld_unit_zero (S := S10000x256) zero_offsets,
    View.ld_unit_zero (S := S128x256) zero_offsets]
  funext y
  have key : ∀ y' : S400x256.Idx, k1_pay1 (F := Ideal) (adjBlk V c t) (wideBlk V c t) (wgBlk V c t) y'
      = result V c (((cfg1.win 3).blk t).view.emb y') := by
    intro y'
    obtain ⟨p, j, rfl⟩ : ∃ (p : Fin 400) (j : Fin 256), y' = ix2 p j := ⟨y' 0, y' 1, eq_ix2 y'⟩
    refine (point_at V c t p j).trans ?_
    have hr : arrRow t p = row (((cfg1.win 3).blk t).view.emb (ix2 p j)) :=
      Fin.ext (by show 400 * t.val + p.val = win1_3.index t (0 : Fin 2) * 400 + 1 * p.val; omega)
    have hc : j = col (((cfg1.win 3).blk t).view.emb (ix2 p j)) :=
      Fin.ext (by show j.val = win1_3.index t (1 : Fin 2) * 256 + 1 * j.val; omega)
    show mmAt (hiddenWide (adjArr V c) (wideArr V c)) (wgArr V c) (arrRow t p) j
      = mmAt (hiddenWide (adjArr V c) (wideArr V c)) (wgArr V c) (row _) (col _)
    rw [← hr, ← hc]
  exact key y

/-- An index of the result array is in point `t`'s block iff each coordinate is in the block's range. -/
theorem mem_blk (t : Fin cfg1.N) (i : S10000x256.Idx) :
    i ∈ ((cfg1.win 3).blk t).view.set ↔ ∀ a : Fin 2, win1_3.index t a * S400x256.size a ≤ (i a).val ∧ (i a).val < win1_3.index t a * S400x256.size a + S400x256.size a := by
  show i ∈ ((View.whole main_v3).slice (win1_3.rect t)).set ↔ _
  rw [View.set_slice_whole, Rect.mem_set_unit]
  exact Iff.rfl

/-- The 25 blocks tile the array: index `i` is in the block of point `⌊i₀ / 400⌋`. -/
theorem cover (i : S10000x256.Idx) : ∃ t : Fin cfg1.N, (cfg1.win 3).flush t = true ∧ i ∈ ((cfg1.win 3).blk t).view.set := by
  have hi0 : (i 0).val < 10000 := (i 0).isLt
  have hi1 : (i 1).val < 256 := (i 1).isLt
  let t : Fin cfg1.N := ⟨(i 0).val / 400, by show (i 0).val / 400 < 25; omega⟩
  obtain ⟨-, -, -, -, -, -, e6, e7⟩ := index_facts t
  have ht : t.val = (i 0).val / 400 := rfl
  refine ⟨t, flush1_3 t, ?_⟩
  rw [mem_blk]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 256 ≤ (i 1).val ∧ (i 1).val < win1_3.index t (1 : Fin 2) * 256 + 256; omega

/-- THE RESULT ARRAY after the region: (the clamped fused gate of the arrays it was entered with) times the weights. -/
theorem final (c : Dev nD) : (dat1 V c).arrAt 3 cfg1.N = result V c :=
  (dat1 V c).arrAt_eq_of_cover 3 (result V c) (fun t _ => flushed_eq V c t) (cover)

end Cert.KernelIdeal.Region1

end
-- ==== Proof.Region2.lean ====
/-
  The last kernel region (the gated layer, no clamp), as a function of the arrays it is entered with.

  The region runs 25 grid points. Point `t` is handed rows `400·t … 400·t + 399` of the adjacency and the whole 256-wide
  matrix `s`, and writes rows `400·t … 400·t + 399` of the result: at row `p` of the block and column `j`, the fused gate
  `logistic((a · s)[p, 128 + j]) * (a · s)[p, j]` of its adjacency block `a`. A block's row `p` IS the adjacency's row
  `400·t + p`, so this is the fused gate of the whole adjacency at that row; the 25 blocks tile the 10000 rows, so the result
  array ends holding the fused gate at every index.
-/
import proofs.«167993_g21887153340606_cont_8to1_464_3_alg».proof.Proof.Gen.KernelIdeal.Frame
import proofs.«167993_g21887153340606_cont_8to1_464_3_alg».proof.Proof.KernelOps
import Idealize.ShloMosaic.Lib.Pipeline.Value

set_option maxRecDepth 16384

noncomputable section

namespace Cert.KernelIdeal.Region2

open Cert.KernelIdeal Cert.KernelIdeal.Gen Cert.GatedSpec Cert.KernelIdeal.Ops
open Idealize.ShloMosaic Idealize.ShloMosaic.TcCoe Idealize.ShloMosaic.ValueIdx Idealize.SL.Sem
open Idealize.ShloMosaic.Pipeline (Dat Cfg Window)

-- the buffer contents the region is entered from: the parameter every statement below is made at
variable (V : (c : Dev nD) → (b : Ref sig .tc) → Buf (Elt Ideal) ((c : Thread nD τ).loc b))

theorem zero_offsets : (![0, 0] : Fin 2 → Nat) = fun _ => 0 := funext fun a => by fin_cases a <;> rfl

/-- The adjacency and the wide matrix as the region finds them. -/
abbrev adjArr (c : Dev nD) : Mat 10000 10000 := V c (Pipeline.arrRef spec2 0)
abbrev wideArr (c : Dev nD) : Mat 10000 256 := V c (Pipeline.arrRef spec2 1)
/-- Point `t`'s blocks of them. -/
abbrev adjBlk (c : Dev nD) (t : Fin cfg2.N) : Mat 400 10000 := iblk2 V c 0 t
abbrev wideBlk (c : Dev nD) (t : Fin cfg2.N) : Mat 10000 256 := iblk2 V c 1 t

/-- The printed index maps over the 25 points: the adjacency's and the result's block row is the point's number, every
    other block index is zero. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 25 := t.isLt

/-- Row `p` of point `t`'s block, as a row of the array. -/
abbrev arrRow (t : Fin cfg2.N) (p : Fin 400) : Fin 10000 := ⟨400 * t.val + p.val, by have := point_lt t; omega⟩

/-- Row `p` of point `t`'s adjacency block is row `400·t + p` of the adjacency. -/
theorem adjBlk_at (c : Dev nD) (t : Fin cfg2.N) (p : Fin 400) (k : Fin 10000) :
    adjBlk V c t (ix2 p k) = adjArr V c (ix2 (arrRow t p) k) := by
  obtain ⟨e0, e1, -, -, -, -⟩ := index_facts t
  show V c (Pipeline.arrRef spec2 0) (((cfg2.win 0).blk t).view.emb (ix2 p k)) = V c (Pipeline.arrRef spec2 0) (ix2 (arrRow t p) k)
  refine congrArg _ (funext fun a => Fin.ext ?_)
  match a with
  | ⟨0, _⟩ => show win2_0.index t (0 : Fin 2) * 400 + 1 * p.val = 400 * t.val + p.val; omega
  | ⟨1, _⟩ => show win2_0.index t (1 : Fin 2) * 10000 + 1 * k.val = k.val; omega

/-- The wide matrix's block is the whole of it. -/
theorem wideBlk_eq (c : Dev nD) (t : Fin cfg2.N) : wideBlk V c t = wideArr V c := by
  obtain ⟨-, -, e2, e3, -, -⟩ := index_facts t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 256 + 1 * (y 1).val = (y 1).val; omega

/-- What the region leaves in its result array: the fused gate of the adjacency and the wide matrix, everywhere. -/
def result (c : Dev nD) : Mat 10000 128 := fun i => gateWide (adjArr V c) (wideArr V c) (row i) (col i)

/-- Point `t`'s stored value at `(p, j)` is the result at `(400·t + p, j)`. -/
theorem point_at (c : Dev nD) (t : Fin cfg2.N) (p : Fin 400) (j : Fin 128) :
    k2_pay1 (F := Ideal) (adjBlk V c t) (wideBlk V c t) (ix2 p j) = gateWide (adjArr V c) (wideArr V c) (arrRow t p) j :=
  (gated_pay_at (adjBlk V c t) (wideBlk V c t) p j).trans
    ((congrArg (fun S : Mat 10000 256 => gateWide (adjBlk V c t) S p j) (wideBlk_eq V c t)).trans
      (gateWide_congr_row (adjBlk V c t) (adjArr V c) (wideArr V c) p (arrRow t p) j (fun k => adjBlk_at V c t p k)))

/-- WHAT POINT `t` WRITES BACK is block `t` of `result`. -/
theorem flushed_eq (c : Dev nD) (t : Fin cfg2.N) :
    (dat2 V c).flushed 2 t = ((cfg2.win 2).blk t).view.read (Elt Ideal) (result V c) := by
  obtain ⟨-, -, -, -, e4, e5⟩ := index_facts t
  show (cfg2.win 2).cut (grid2.coords t) ((dat2 V c).after 2 t) = _
  rw [after2_2]
  unfold out2_2
  rw [View.canon_unit_zero zero_offsets]
  simp only [View.ld_unit_zero (S := S400x10000) zero_offsets, View.ld_unit_zero (S := S10000x256) zero_offsets]
  funext y
  have key : ∀ y' : S400x128.Idx, k2_pay1 (F := Ideal) (adjBlk V c t) (wideBlk V c t) y'
      = result V c (((cfg2.win 2).blk t).view.emb y') := by
    intro y'
    obtain ⟨p, j, rfl⟩ : ∃ (p : Fin 400) (j : Fin 128), y' = ix2 p j := ⟨y' 0, y' 1, eq_ix2 y'⟩
    refine (point_at V c t p j).trans ?_
    have hr : arrRow t p = row (((cfg2.win 2).blk t).view.emb (ix2 p j)) :=
      Fin.ext (by show 400 * t.val + p.val = win2_2.index t (0 : Fin 2) * 400 + 1 * p.val; omega)
    have hc : j = col (((cfg2.win 2).blk t).view.emb (ix2 p j)) :=
      Fin.ext (by show j.val = win2_2.index t (1 : Fin 2) * 128 + 1 * j.val; omega)
    show gateWide (adjArr V c) (wideArr V c) (arrRow t p) j = gateWide (adjArr V c) (wideArr V c) (row _) (col _)
    rw [← hr, ← hc]
  exact key y

/-- An index of the result array is in point `t`'s block iff each coordinate is in the block's range. -/
theorem mem_blk (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v4).slice (win2_2.rect t)).set ↔ _
  rw [View.set_slice_whole, Rect.mem_set_unit]
  exact Iff.rfl

/-- The 25 blocks tile the array: index `i` is in the block of point `⌊i₀ / 400⌋`. -/
theorem cover (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  let t : Fin cfg2.N := ⟨(i 0).val / 400, by show (i 0).val / 400 < 25; omega⟩
  obtain ⟨-, -, -, -, e4, e5⟩ := index_facts t
  have ht : t.val = (i 0).val / 400 := rfl
  refine ⟨t, flush2_2 t, ?_⟩
  rw [mem_blk]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 128 ≤ (i 1).val ∧ (i 1).val < win2_2.index t (1 : Fin 2) * 128 + 128; omega

/-- THE RESULT ARRAY after the region: the fused gate of the arrays it was entered with. -/
theorem final (c : Dev nD) : (dat2 V c).arrAt 2 cfg2.N = result V c :=
  (dat2 V c).arrAt_eq_of_cover 2 (result V c) (fun t _ => flushed_eq V c t) (cover)

end Cert.KernelIdeal.Region2

end
-- ==== Proof.KernelChain.lean ====
/-
  The idealized kernel's result, computed boundary by boundary.

  @main is: two host concatenations (`[W0 | G0]` and `[W1 | G1]`), then three kernel regions. Between two items every
  buffer has definite contents. Walking forward from the launch memory:
  * after the host stretch the two weight buffers hold the concatenations, the arguments are untouched;
  * the first region writes `x · [W0 | G0]` and touches nothing else;
  * the second region, entered with that product, the adjacency and `[W1 | G1]`, writes
    (the clamped fused gate) · `[W1 | G1]`;
  * the third region, entered with that and the adjacency, writes the fused gate of it: the result.
  That is the fused computation `logitsWide` over the concatenated weights, which is the two-layer gated graph
  convolution `logits` (the law of the specification).
-/
import proofs.«167993_g21887153340606_cont_8to1_464_3_alg».proof.Proof.Gen.KernelIdeal.Frame
import proofs.«167993_g21887153340606_cont_8to1_464_3_alg».proof.Proof.Region0
import proofs.«167993_g21887153340606_cont_8to1_464_3_alg».proof.Proof.Region1
import proofs.«167993_g21887153340606_cont_8to1_464_3_alg».proof.Proof.Region2

set_option maxRecDepth 16384

noncomputable section

namespace Cert.KernelIdeal.Chain

open Cert.KernelIdeal Cert.KernelIdeal.Gen Cert.GatedSpec Cert.KernelIdeal.Ops
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The six arguments in the launch memory, as matrices. -/
abbrev xM (c : Dev nD) : Mat 10000 128 := m ((c : Thread nD τ).loc main_arg0)
abbrev adjM (c : Dev nD) : Mat 10000 10000 := m ((c : Thread nD τ).loc main_arg1)
abbrev W0M (c : Dev nD) : Mat 128 128 := m ((c : Thread nD τ).loc main_arg2)
abbrev G0M (c : Dev nD) : Mat 128 128 := m ((c : Thread nD τ).loc main_arg3)
abbrev W1M (c : Dev nD) : Mat 128 128 := m ((c : Thread nD τ).loc main_arg4)
abbrev G1M (c : Dev nD) : Mat 128 128 := m ((c : Thread nD τ).loc main_arg5)

/-! ## After the host stretch -/

theorem host_x (c : Dev nD) : (W1 m ρ c (Proc.devRef .tc main_arg0) : Mat 10000 128) = xM m c :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem host_adj (c : Dev nD) : (W1 m ρ c (Proc.devRef .tc main_arg1) : Mat 10000 10000) = adjM m c :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

theorem host_wg0 (c : Dev nD) : (W1 m ρ c (Proc.devRef .tc main_v0) : Mat 128 256) = catc (W0M m c) (G0M m c) := by
  show StableHlo.after hostOps0 (W0 m ρ c) (Proc.devRef .tc main_v0) = _
  after_results
  exact concatenate_eq_catc _ _

theorem host_wg1 (c : Dev nD) : (W1 m ρ c (Proc.devRef .tc main_v1) : Mat 128 256) = catc (W1M m c) (G1M m c) := by
  show StableHlo.after hostOps0 (W0 m ρ c) (Proc.devRef .tc main_v1) = _
  after_results
  exact concatenate_eq_catc _ _

/-! ## After the first region -/

/-- The wide projection `x · [W0 | G0]`. -/
theorem after0_proj (c : Dev nD) :
    (W2 m ρ c (Proc.devRef .tc main_v2) : Mat 10000 256) = mm (xM m c) (catc (W0M m c) (G0M m c)) := by
  refine (W2_arr m ρ c 2).trans ((Region0.final (V1 m ρ) c).trans ?_)
  show mm (W1 m ρ c (Proc.devRef .tc main_arg0) : Mat 10000 128) (W1 m ρ c (Proc.devRef .tc main_v0) : Mat 128 256) = _
  rw [host_x, host_wg0]

theorem after0_adj (c : Dev nD) : (W2 m ρ c (Proc.devRef .tc main_arg1) : Mat 10000 10000) = adjM m c :=
  (W2_of_ne m ρ c main_arg1 (by decide)).trans (host_adj m ρ c)

theorem after0_wg1 (c : Dev nD) : (W2 m ρ c (Proc.devRef .tc main_v1) : Mat 128 256) = catc (W1M m c) (G1M m c) :=
  (W2_of_ne m ρ c main_v1 (by decide)).trans (host_wg1 m ρ c)

/-! ## After the second region -/

/-- The next layer's wide projection: (the clamped fused gate of the first) · `[W1 | G1]`. -/
theorem after1_proj (c : Dev nD) :
    (W3 m ρ c (Proc.devRef .tc main_v3) : Mat 10000 256)
      = mm (hiddenWide (adjM m c) (mm (xM m c) (catc (W0M m c) (G0M m c)))) (catc (W1M m c) (G1M m c)) := by
  refine (W3_arr m ρ c 3).trans ((Region1.final (V2 m ρ) c).trans ?_)
  show mm (hiddenWide (W2 m ρ c (Proc.devRef .tc main_arg1) : Mat 10000 10000) (W2 m ρ c (Proc.devRef .tc main_v2) : Mat 10000 256))
      (W2 m ρ c (Proc.devRef .tc main_v1) : Mat 128 256) = _
  rw [after0_adj, after0_proj, after0_wg1]

theorem after1_adj (c : Dev nD) : (W3 m ρ c (Proc.devRef .tc main_arg1) : Mat 10000 10000) = adjM m c :=
  ((W3_arr m ρ c 0).trans (((dat1 (V2 m ρ) c).arrAt_in 0 rfl _).trans (A_eq1 (V2 m ρ) c 0))).trans (after0_adj m ρ c)

/-! ## After the third region: the result -/

/-- THE KERNEL'S RESULT: the two-layer gated graph convolution of its arguments. -/
theorem result_eq (c : Dev nD) :
    (W4 m ρ c (Proc.devRef .tc main_v4) : Mat 10000 128)
      = logits (xM m c) (adjM m c) (W0M m c) (G0M m c) (W1M m c) (G1M m c) := by
  refine (W4_arr m ρ c 2).trans ((Region2.final (V3 m ρ) c).trans ?_)
  show (fun i => gateWide (W3 m ρ c (Proc.devRef .tc main_arg1) : Mat 10000 10000) (W3 m ρ c (Proc.devRef .tc main_v3) : Mat 10000 256) (row i) (col i)) = _
  rw [after1_adj, after1_proj]
  exact logitsWide_eq (xM m c) (adjM m c) (W0M m c) (G0M m c) (W1M m c) (G1M m c)

end Cert.KernelIdeal.Chain

end
-- ==== Proof.lean ====
/-
  The certificate of a fused two-layer gated graph convolution against its plain reference.

  Both programs compute, for features `x` (10000×128), a dense adjacency `adj` (10000×10000) and weights
  `W0, G0, W1, G1` (128×128),
      h      = max(logistic(adj · (x · G0)) * (adj · (x · W0)), 0)
      logits =     logistic(adj · (h · G1)) * (adj · (h · W1)).
  The reference does it with eight separate products. The kernel concatenates each layer's two weight matrices, so that
  one product with `[W | G]` yields support and gate side by side, and runs three kernel regions: the projection
  `x · [W0 | G0]`; a row-blocked region that aggregates, gates, clamps and projects into the next layer; and a row-blocked
  region that aggregates and gates. Over the extended reals the two agree entry by entry: a product with a
  concatenation, read at a column, is the product with the piece that column lies in (the same terms, summed), and the
  reference's spelt-out `1 / (1 + exp(-z))` is the logistic function. No step rearranges a sum or distributes a
  product, so the finiteness of the inputs is never used.

  The three frames are the generated frame certificates (the reference's is its generated run with the result dropped);
  the idealization rewrote nothing, so `preserves` is trivial; `algebraic` puts the kernel's run, with its result named
  and computed boundary by boundary (Proof/KernelRun.lean, Proof/KernelChain.lean over Proof/Region0–2.lean), beside the
  reference's generated run read stage by stage (Proof/RefValue.lean): both results are `logits` of the arguments
  (Proof/GatedSpec.lean).
-/
import proofs.«167993_g21887153340606_cont_8to1_464_3_alg».proof.Defs
import proofs.«167993_g21887153340606_cont_8to1_464_3_alg».proof.Proof.Gen.Kernel
import proofs.«167993_g21887153340606_cont_8to1_464_3_alg».proof.Proof.Gen.Kernel.Skeleton
import proofs.«167993_g21887153340606_cont_8to1_464_3_alg».proof.Proof.Gen.Kernel.Launch
import proofs.«167993_g21887153340606_cont_8to1_464_3_alg».proof.Proof.Gen.Kernel.Points
import proofs.«167993_g21887153340606_cont_8to1_464_3_alg».proof.Proof.Gen.Kernel.Frame
import proofs.«167993_g21887153340606_cont_8to1_464_3_alg».proof.Proof.Gen.KernelIdeal
import proofs.«167993_g21887153340606_cont_8to1_464_3_alg».proof.Proof.Gen.KernelIdeal.Skeleton
import proofs.«167993_g21887153340606_cont_8to1_464_3_alg».proof.Proof.Gen.KernelIdeal.Launch
import proofs.«167993_g21887153340606_cont_8to1_464_3_alg».proof.Proof.Gen.KernelIdeal.Points
import proofs.«167993_g21887153340606_cont_8to1_464_3_alg».proof.Proof.Gen.KernelIdeal.Frame
import proofs.«167993_g21887153340606_cont_8to1_464_3_alg».proof.Proof.Gen.ReferenceIdeal
import proofs.«167993_g21887153340606_cont_8to1_464_3_alg».proof.Proof.Gen.ReferenceIdeal.Run
import proofs.«167993_g21887153340606_cont_8to1_464_3_alg».proof.Proof.Gen.ReferenceIdeal.Read
import proofs.«167993_g21887153340606_cont_8to1_464_3_alg».proof.Proof.Gen.Pre_finite_inputs
import proofs.«167993_g21887153340606_cont_8to1_464_3_alg».proof.Proof.GatedSpec
import proofs.«167993_g21887153340606_cont_8to1_464_3_alg».proof.Proof.RefValue
import proofs.«167993_g21887153340606_cont_8to1_464_3_alg».proof.Proof.KernelRun
import proofs.«167993_g21887153340606_cont_8to1_464_3_alg».proof.Proof.KernelChain
import Idealize.ShloMosaic.Adequacy
import Idealize.ShloMosaic.Init

noncomputable section

namespace Cert.Proof

open Idealize.ShloMosaic Idealize.ShloMosaic.TcCoe Idealize.SL.Sem Cert.GatedSpec

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, both programs end with `logits` of those arguments in their result
    buffers: the kernel's by its run read boundary by boundary, the reference's by its run read stage by stage. -/
theorem algebraic : Cert.algebraic_KernelIdeal_ReferenceIdeal := by
  intro m ρ m' ρ' _ hagree
  refine ⟨fun c => logits (Cert.KernelIdeal.Chain.xM m c) (Cert.KernelIdeal.Chain.adjM m c) (Cert.KernelIdeal.Chain.W0M m c)
      (Cert.KernelIdeal.Chain.G0M m c) (Cert.KernelIdeal.Chain.W1M m c) (Cert.KernelIdeal.Chain.G1M m c), ?_, ?_⟩
  · exact (θ_run Cert.KernelIdeal.defs _ _).mono
      (fun r h c => ⟨(h c).1.trans (Cert.KernelIdeal.Chain.result_eq m ρ c), (h c).2⟩)
      (Cert.KernelIdeal.Run.run_named m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    rw [Cert.ReferenceIdeal.Read.val_main_v22_eq, a0, a1, a2, a3, a4, a5]
    exact Cert.ReferenceIdeal.RefValue.v22_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
